-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x65 : Shape := ⟨2, ![100000, 65]⟩
abbrev S2x3200000 : Shape := ⟨2, ![2, 3200000]⟩
abbrev S65x64 : Shape := ⟨2, ![65, 64]⟩
abbrev S64 : Shape := ⟨1, ![64]⟩
abbrev S64x64 : Shape := ⟨2, ![64, 64]⟩
abbrev S_ : Shape := ⟨0, ![]⟩

class Facts : Prop where
  bcast_S_S100000x65 : S_.BroadcastsInDim S100000x65 (![] : Fin 0 → Fin S100000x65.rank)
  reducesTo_S100000x65_S_d0_1 : S100000x65.ReducesTo [0, 1] S_
  h_S_ : 0 < S_.numel
  bcast_S_S65x64 : S_.BroadcastsInDim S65x64 (![] : Fin 0 → Fin S65x64.rank)
  reducesTo_S65x64_S_d0_1 : S65x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x65 .f32) (main_arg1 : IVec S2x3200000 32) (main_arg2 : FVec F S65x64 .f32) (main_arg3 : FVec F S64 .f32) (main_arg4 : FVec F S64x64 .f32) (main_arg5 : FVec F S64 .f32) : IVec S_ 1 :=
  let main_v0 : FVec F S100000x65 .f32 := Host.absf main_arg0
  let main_cst : FVec F S_ .f32 := constant S_ .f32 0x7F800000#32
  let main_v1 : FVec F S100000x65 .f32 := broadcastInDim S100000x65 ![] bcast_S_S100000x65 main_cst
  let main_v2 : IVec S100000x65 1 := cmpf .olt main_v0 main_v1
  let main_c : IVec S_ 1 := constantI S_ 1 1#1
  let main_v3 : IVec S_ 1 := (fun x v => Host.reduce IntOp.andi x v reducesTo_S100000x65_S_d0_1 h_S_) main_v2 main_c
  let main_v4 : FVec F S65x64 .f32 := Host.absf main_arg2
  let main_cst_0 : FVec F S_ .f32 := constant S_ .f32 0x7F800000#32
  let main_v5 : FVec F S65x64 .f32 := broadcastInDim S65x64 ![] bcast_S_S65x64 main_cst_0
  let main_v6 : IVec S65x64 1 := cmpf .olt main_v4 main_v5
  let main_c_1 : IVec S_ 1 := constantI S_ 1 1#1
  let main_v7 : IVec S_ 1 := (fun x v => Host.reduce IntOp.andi x v reducesTo_S65x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x65 : Shape := ⟨2, ![100000, 65]⟩
abbrev S2x3200000 : Shape := ⟨2, ![2, 3200000]⟩
abbrev S65x64 : Shape := ⟨2, ![65, 64]⟩
abbrev S64 : Shape := ⟨1, ![64]⟩
abbrev S64x64 : Shape := ⟨2, ![64, 64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x65 : Shape := ⟨2, ![3200000, 65]⟩
abbrev S100000x64 : Shape := ⟨2, ![100000, 64]⟩
abbrev S5000x65 : Shape := ⟨2, ![5000, 65]⟩
abbrev S5000x64 : Shape := ⟨2, ![5000, 64]⟩
abbrev S1x64 : Shape := ⟨2, ![1, 64]⟩

abbrev nBuf : Space → Nat
  | .hbm => 24
  | .vmem => 10
  | .smem => 0
  | _ => 0

abbrev bufTy : (tb : Table) → Fin (tcTables nBuf tb) → BufTy
  | .hbm, ⟨0, _⟩ => ⟨S100000x65, .f32⟩
  | .hbm, ⟨1, _⟩ => ⟨S2x3200000, .i32⟩
  | .hbm, ⟨2, _⟩ => ⟨S65x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x65, .f32⟩
  | .hbm, ⟨19, _⟩ => ⟨S_, .f32⟩
  | .hbm, ⟨20, _⟩ => ⟨S100000x65, .f32⟩
  | .hbm, ⟨21, _⟩ => ⟨S3200000x1, .i32⟩
  | .hbm, ⟨22, _⟩ => ⟨S100000x65, .f32⟩
  | .hbm, ⟨23, _⟩ => ⟨S100000x64, .f32⟩
  | .local _ .vmem, ⟨0, _⟩ => ⟨S5000x65, .f32⟩
  | .local _ .vmem, ⟨1, _⟩ => ⟨S5000x65, .f32⟩
  | .local _ .vmem, ⟨2, _⟩ => ⟨S5000x65, .f32⟩
  | .local _ .vmem, ⟨3, _⟩ => ⟨S5000x65, .f32⟩
  | .local _ .vmem, ⟨4, _⟩ => ⟨S65x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | _, _ => ⟨S100000x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x65 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S65x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x65 : S_.BroadcastsInDim S100000x65 (![] : Fin 0 → Fin S100000x65.rank)
  inb_S5000x65_S5000x65_0_0 : ∀ a, (![0, 0] : Fin 2 → Nat) a + S5000x65.size a ≤ S5000x65.size a
  h_S5000x65 : 0 < S5000x65.numel
  shapeCasts_S5000x65_S5000x65 : S5000x65.ShapeCasts S5000x65
  bitsLt_bf16_f32 : FTy.bits .bf16 < FTy.bits .f32
  inb_S65x64_S65x64_0_0 : ∀ a, (![0, 0] : Fin 2 → Nat) a + S65x64.size a ≤ S65x64.size a
  h_S65x64 : 0 < S65x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  gather_S100000x65_S3200000x1_S3200000x65_1_0_n_n_0_1_165_wf : GatherDims.WF S100000x65 S3200000x1 S3200000x65 [1] [0] [] [0] [] 1 ![1, 65]
  scatter_S100000x65_S3200000x1_S3200000x65_1_0_0_1_wf : ScatterDims.WF S100000x65 S3200000x1 S3200000x65 [1] [0] [0] 1
  dot_S5000x65_S65x64_S5000x64_1_0_0_1_n_n_wf : DotDims.WF S5000x65 S65x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x65.size a ≤ S100000x65.size a
  hwx0_0 : ∀ i : grid0.Coords, EltTy.bits .f32 = 32 ∨ (Rect.block (s := S100000x65) S5000x65.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x65.size a ≤ S100000x65.size a
  hwx0_1 : ∀ i : grid0.Coords, EltTy.bits .f32 = 32 ∨ (Rect.block (s := S100000x65) S5000x65.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S65x64.size a ≤ S65x64.size a
  hwx0_2 : ∀ i : grid0.Coords, EltTy.bits .f32 = 32 ∨ (Rect.block (s := S65x64) S65x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)

variable [Facts₀]

def gather_S100000x65_S3200000x1_S3200000x65_1_0_n_n_0_1_165 : GatherDims S100000x65 S3200000x1 S3200000x65 where
  offsetDims := [1]
  collapsedSliceDims := [0]
  operandBatchingDims := []
  startIndicesBatchingDims := []
  startIndexMap := [0]
  indexVectorDim := 1
  sliceSizes := ![1, 65]
  wf := gather_S100000x65_S3200000x1_S3200000x65_1_0_n_n_0_1_165_wf
def scatter_S100000x65_S3200000x1_S3200000x65_1_0_0_1 : ScatterDims S100000x65 S3200000x1 S3200000x65 where
  updateWindowDims := [1]
  insertedWindowDims := [0]
  scatterDimsToOperandDims := [0]
  indexVectorDim := 1
  wf := scatter_S100000x65_S3200000x1_S3200000x65_1_0_0_1_wf
def dot_S5000x65_S65x64_S5000x64_1_0_0_1_n_n : DotDims S5000x65 S65x64 S5000x64 where
  lhsContracting := [1]
  rhsContracting := [0]
  lhsNonContracting := [0]
  rhsNonContracting := [1]
  lhsBatch := []
  rhsBatch := []
  wf := dot_S5000x65_S65x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x65.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x65.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S65x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x65 : Shape := ⟨2, ![100000, 65]⟩
abbrev S2x3200000 : Shape := ⟨2, ![2, 3200000]⟩
abbrev S65x64 : Shape := ⟨2, ![65, 64]⟩
abbrev S64 : Shape := ⟨1, ![64]⟩
abbrev S64x64 : Shape := ⟨2, ![64, 64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x65 : Shape := ⟨2, ![3200000, 65]⟩
abbrev S100000x64 : Shape := ⟨2, ![100000, 64]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S100000x65, .f32⟩
  | .hbm, ⟨1, _⟩ => ⟨S2x3200000, .i32⟩
  | .hbm, ⟨2, _⟩ => ⟨S65x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x65, .f32⟩
  | .hbm, ⟨19, _⟩ => ⟨S_, .f32⟩
  | .hbm, ⟨20, _⟩ => ⟨S100000x65, .f32⟩
  | .hbm, ⟨21, _⟩ => ⟨S3200000x1, .i32⟩
  | .hbm, ⟨22, _⟩ => ⟨S100000x65, .f32⟩
  | .hbm, ⟨23, _⟩ => ⟨S100000x65, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | _, _ => ⟨S100000x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x65 : S_.BroadcastsInDim S100000x65 (![] : Fin 0 → Fin S100000x65.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S100000x65_S3200000x1_S3200000x65_1_0_n_n_0_1_165_wf : GatherDims.WF S100000x65 S3200000x1 S3200000x65 [1] [0] [] [0] [] 1 ![1, 65]
  scatter_S100000x65_S3200000x1_S3200000x65_1_0_0_1_wf : ScatterDims.WF S100000x65 S3200000x1 S3200000x65 [1] [0] [0] 1
  dot_S100000x65_S65x64_S100000x64_1_0_0_1_n_n_wf : DotDims.WF S100000x65 S65x64 S100000x64 [1] [0] [0] [1] [] []
  dot_S100000x64_S64x64_S100000x64_1_0_0_1_n_n_wf : DotDims.WF S100000x64 S64x64 S100000x64 [1] [0] [0] [1] [] []

variable [Facts₀]

def gather_S100000x65_S3200000x1_S3200000x65_1_0_n_n_0_1_165 : GatherDims S100000x65 S3200000x1 S3200000x65 where
  offsetDims := [1]
  collapsedSliceDims := [0]
  operandBatchingDims := []
  startIndicesBatchingDims := []
  startIndexMap := [0]
  indexVectorDim := 1
  sliceSizes := ![1, 65]
  wf := gather_S100000x65_S3200000x1_S3200000x65_1_0_n_n_0_1_165_wf
def scatter_S100000x65_S3200000x1_S3200000x65_1_0_0_1 : ScatterDims S100000x65 S3200000x1 S3200000x65 where
  updateWindowDims := [1]
  insertedWindowDims := [0]
  scatterDimsToOperandDims := [0]
  indexVectorDim := 1
  wf := scatter_S100000x65_S3200000x1_S3200000x65_1_0_0_1_wf
def dot_S100000x65_S65x64_S100000x64_1_0_0_1_n_n : DotDims S100000x65 S65x64 S100000x64 where
  lhsContracting := [1]
  rhsContracting := [0]
  lhsNonContracting := [0]
  rhsNonContracting := [1]
  lhsBatch := []
  rhsBatch := []
  wf := dot_S100000x65_S65x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.LibRowLayersPlain.lean ====
/-
  The affine layer x · w + b of a row-wise network whose weight matrix w is stored with the contracted axis first
  (x of m×k, w of k×n), read at an index at the exact instance (floats read as extended reals): the tiled spelling —
  the matrix unit's product into a zero accumulator, operands narrowed, the bias a row broadcast down the block —
  against the whole-array spelling — the host's plain product, the bias broadcast twice. Row r of either result reads
  row r of x only, so a block whose rows are rows of the whole matrix yields rows of the whole result.
-/
import Idealize.ShloMosaic.PureOps.Ideal.Laws
import Idealize.ShloMosaic.Lib.ValueIdx
import Idealize.ShloMosaic.Lib.StackMember
import Idealize.ShloMosaic.Lib.KernelVsHost
import proofs.«155643_j24146306138775_1_alg».proof.Proof.LibRowLayers

noncomputable section

open scoped BigOperators

namespace RowLayers

open Idealize.ShloMosaic Idealize.ShloMosaic.ValueIdx

variable {m k n : ℕ}

/-- An m×k matrix times a k×n matrix on the matrix unit, accumulated into the zero splat, at (a, b): the sum over the
    contracted coordinate c of A(a, c) · B(c, b). -/
theorem matmulPlain_apply {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- The affine layer in the tiled spelling, at (r, j): the row r of x against column j of w, plus entry j of the bias. -/
theorem plainAffineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![k, n]⟩ .f32) (b : FVec Ideal ⟨1, ![n]⟩ .f32)
    (r : Fin m) (j : Fin n) :
    addf (matmul (DotDims.plain m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 c j)) + b (ix1 j) := by
  rw [addf_apply, matmulPlain_apply, biasRow_apply]
  rfl

/-- The affine layer in the whole-array spelling, at (r, j). -/
theorem hostPlainAffine_apply (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![k, n]⟩ .f32) (b : FVec Ideal ⟨1, ![n]⟩ .f32)
    (r : Fin m) (j : Fin n) :
    addf (Host.dotGeneral (DotDims.plain m k n) none X w)
        (broadcastInDim ⟨2, ![m, n]⟩ ![0, 1] h01 (broadcastInDim ⟨2, ![1, n]⟩ ![1] h1 b)) (ix2 r j)
      = (∑ c : Fin k, X (ix2 r c) * w (ix2 c j)) + b (ix1 j) := by
  rw [addf_apply, StackMember.dotGeneral_plain_apply, rowDown_apply, rowBroadcast_apply]

/-- Rows of a block are rows of the whole, through the affine layer: if the block x holds the σ-rows of X, the tiled
    layer's result holds the σ-rows of the whole-array layer's. The two dimension records are any that spell the plain
    product (contract the left operand's columns with the right operand's rows). -/
theorem Rows.affinePlain {mb M : ℕ} {σ : Fin mb → Fin M}
    (dk : DotDims ⟨2, ![mb, k]⟩ ⟨2, ![k, n]⟩ ⟨2, ![mb, n]⟩) (hdk : dk = DotDims.plain mb k n)
    (dh : DotDims ⟨2, ![M, k]⟩ ⟨2, ![k, n]⟩ ⟨2, ![M, n]⟩) (hdh : dh = DotDims.plain M k n)
    (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![k, n]⟩ .f32) (b : FVec Ideal ⟨1, ![n]⟩ .f32) :
    Rows σ
      (Idealize.ShloMosaic.addf (matmul dk none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral dh none X w)
        (broadcastInDim ⟨2, ![M, n]⟩ ![0, 1] h01 (broadcastInDim ⟨2, ![1, n]⟩ ![1] h1 b))) := by
  subst hdk hdh
  intro p c
  rw [plainAffineRows_apply, hostPlainAffine_apply]
  simp only [hx p]

end RowLayers

end
-- ==== Proof.Network.lean ====
/-
  The two dense layers of the graph convolution, block against whole array.

  With H = X + A (the node features plus the aggregated neighbour features), both programs compute
      relu(H · w1 + b1) · w2 + b2,
  the reference over all 100000 rows at once, the kernel over a block of 5000 rows at a time (operands narrowed before
  each product, which changes nothing on extended reals; each product accumulated into zero). Row r of the result
  depends on row r of X and of A only, so if the rows of a block are rows σ p of the whole arrays, the block's result
  holds rows σ p of the whole result.
-/
import proofs.«155643_j24146306138775_1_alg».proof.Proof.Gen.KernelIdeal.Skeleton
import proofs.«155643_j24146306138775_1_alg».proof.Proof.Gen.ReferenceIdeal
import proofs.«155643_j24146306138775_1_alg».proof.Proof.LibRowLayersPlain

noncomputable section

namespace Cert.ReferenceIdeal.Net

open Cert.ReferenceIdeal.Gen Idealize.ShloMosaic

/-- relu((X + A) · w1 + b1) · w2 + b2 over whole arrays, in the reference's operations. -/
def dense (X A : FVec Ideal S100000x65 .f32) (w1 : FVec Ideal S65x64 .f32) (b1 : FVec Ideal S64 .f32)
    (w2 : FVec Ideal S64x64 .f32) (b2 : FVec Ideal S64 .f32) : FVec Ideal S100000x64 .f32 :=
  addf (Host.dotGeneral dot_S100000x64_S64x64_S100000x64_1_0_0_1_n_n none
      (maximumf (addf (Host.dotGeneral dot_S100000x65_S65x64_S100000x64_1_0_0_1_n_n none (addf X A) w1)
          (broadcastInDim S100000x64 ![0, 1] bcast_S1x64_S100000x64_0_1 (broadcastInDim S1x64 ![1] bcast_S64_S1x64_1 b1)))
        (broadcastInDim S100000x64 ![] bcast_S_S100000x64 (constant S_ .f32 0x00000000#32))) w2)
    (broadcastInDim S100000x64 ![0, 1] bcast_S1x64_S100000x64_0_1 (broadcastInDim S1x64 ![1] bcast_S64_S1x64_1 b2))

end Cert.ReferenceIdeal.Net

namespace Cert.KernelIdeal.Net

open Cert.KernelIdeal.Gen Idealize.ShloMosaic RowLayers

/-- The kernel body's stored value on a block whose rows are the σ-rows of X and of A holds the σ-rows of the dense
    layers of X and A: layer by layer, each layer reading row r of its operand for row r of its result. -/
theorem payload_rows {σ : Fin 5000 → Fin 100000} {x0 x1 : Vec Ideal S5000x65 .f32}
    {X A : FVec Ideal Cert.ReferenceIdeal.S100000x65 .f32} (h0 : Rows σ x0 X) (h1 : Rows σ x1 A)
    (w1 : Vec Ideal S65x64 .f32) (b1 : Vec Ideal S64 .f32) (w2 : Vec Ideal S64x64 .f32) (b2 : Vec Ideal S64 .f32) :
    Rows σ (k0_pay1 (F := Ideal) x0 x1 w1 b1 w2 b2) (Cert.ReferenceIdeal.Net.dense X A w1 b1 w2 b2) := by
  have hsum : Rows σ (addf (F := Ideal) (φ := .f32) x0 (shapeCast S5000x65 x1 shapeCasts_S5000x65_S5000x65)) (addf (F := Ideal) (φ := .f32) X A) := by
    rw [shapeCast_self]; exact Rows.addf h0 h1
  unfold k0_pay1 Cert.ReferenceIdeal.Net.dense
  exact Rows.affinePlain _ rfl _ rfl _ _ _ _ _
    (Rows.truncf _ (Rows.relu _ (Rows.affinePlain _ rfl _ rfl _ _ _ _ _ (Rows.truncf _ hsum) w1 b1))) w2 b2

end Cert.KernelIdeal.Net

end
-- ==== Proof.KernelValue.lean ====
/-
  What the kernel program leaves in its result array, as one function of the argument arrays.

  @main first aggregates neighbour features on the host (a gather of the source rows, scatter-added into the
  destination rows: `agg`), then launches the dense layers over a grid of 20 points. Point t stages rows
  5000·t … 5000·t + 4999 of the features X and of the aggregate A, and all of w1, b1, w2, b2; it writes back rows
  5000·t … 5000·t + 4999 of the result. By the row-wise reading of the layers (`payload_rows`) what point t writes
  is block t of `dense X A w1 b1 w2 b2`; the 20 blocks cover the 100000 rows, so the result array ends holding it.
-/
import proofs.«155643_j24146306138775_1_alg».proof.Proof.Gen.KernelIdeal.Value
import proofs.«155643_j24146306138775_1_alg».proof.Proof.Network
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Net

open Cert.KernelIdeal Cert.KernelIdeal.Gen Cert.KernelIdeal.Value RowLayers Idealize.ShloMosaic.ValueIdx

variable (m : (ℓ : Loc nD τ sig) → Buf (Elt Ideal) ℓ) (ρ : Dev nD → PrngReg)

/-! ## The aggregate the host computes before the launch -/

/-- Row d of the aggregate is the sum of the rows X[src e] over the edges e with dst e = d (source indices below zero
    wrapped by 100000 first), in this program's host operations. -/
def agg (X : FVec Ideal S100000x65 .f32) (E : IVec S2x3200000 32) : FVec Ideal S100000x65 .f32 :=
  Host.scatterAdd scatter_S100000x65_S3200000x1_S3200000x65_1_0_0_1
    (broadcastInDim S100000x65 ![] bcast_S_S100000x65 (constant S_ .f32 0x00000000#32))
    (broadcastInDim S3200000x1 ![0] bcast_S3200000_S3200000x1_0
      (shapeCast S3200000 (extractStridedSlice S1x3200000 ![1, 0] E slices_S2x3200000_S1x3200000_1_0) shapeCasts_S1x3200000_S3200000))
    (Host.gather gather_S100000x65_S3200000x1_S3200000x65_1_0_n_n_0_1_165 X
      (broadcastInDim S3200000x1 ![0] bcast_S3200000_S3200000x1_0
        (select
          (cmpi .slt (shapeCast S3200000 (extractStridedSlice S1x3200000 ![0, 0] E slices_S2x3200000_S1x3200000_0_0) shapeCasts_S1x3200000_S3200000)
            (broadcastInDim S3200000 ![] bcast_S_S3200000 (constantI S_ 32 0#32)))
          (addi (shapeCast S3200000 (extractStridedSlice S1x3200000 ![0, 0] E slices_S2x3200000_S1x3200000_0_0) shapeCasts_S1x3200000_S3200000)
            (broadcastInDim S3200000 ![] bcast_S_S3200000 (constantI S_ 32 100000#32)))
          (shapeCast S3200000 (extractStridedSlice S1x3200000 ![0, 0] E slices_S2x3200000_S1x3200000_0_0) shapeCasts_S1x3200000_S3200000))))

/-- The second operand of the launch holds the aggregate of the arguments. -/
theorem V_agg (c : Dev nD) :
    (V m c main_v13 : S100000x65.Idx → EReal) = agg (m ((c : Thread nD τ).loc main_arg0)) (m ((c : Thread nD τ).loc main_arg1)) := by
  dsimp only [Gen.V, Gen.hostOps0]
  after_results
  rfl

/-! ## The grid's index maps -/

theorem hz2 : (![0, 0] : Fin 2 → Nat) = fun _ => 0 := funext fun a => by fin_cases a <;> rfl
theorem hz1 : (![0] : Fin 1 → Nat) = fun _ => 0 := funext fun a => by fin_cases a <;> rfl

/-- Point t's blocks: the row windows (features, aggregate, result) sit at block row t, the weights and biases at
    block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row p of point t's block is row 5000·t + p of the whole array. -/
def rowOf (t : Fin cfg0.N) (p : Fin 5000) : Fin 100000 :=
  ⟨5000 * t.val + p.val, by have h : t.val < 20 := Nat.lt_of_lt_of_eq t.isLt N_0; have := p.isLt; omega⟩

/-! ## Each window's block at a point, read off its array -/

/-- Window 0's block at point t, read off ANY array A of the features' shape, holds rows 5000·t + p of A. -/
theorem blk0_rows (A : S100000x65.Idx → EReal) (t : Fin cfg0.N) :
    Rows (rowOf t) (((cfg0.win 0).blk t).view.read (Elt Ideal) A : Vec Ideal S5000x65 .f32) A := by
  obtain ⟨e0, e1, -⟩ := idx_facts t
  intro p j
  have hidx : ((cfg0.win 0).blk t).view.emb (ix2 p j) = ix2 (rowOf t p) j := by
    funext a
    apply Fin.ext
    match a with
    | ⟨0, _⟩ => show win0_0.index t 0 * 5000 + 1 * p.val = 5000 * t.val + p.val; rw [e0]; omega
    | ⟨1, _⟩ => show win0_0.index t 1 * 65 + 1 * j.val = j.val; rw [e1]; omega
  rw [View.read_apply]
  exact congrArg A hidx

/-- The same for window 1, whose array is the aggregate's. -/
theorem blk1_rows (A : S100000x65.Idx → EReal) (t : Fin cfg0.N) :
    Rows (rowOf t) (((cfg0.win 1).blk t).view.read (Elt Ideal) A : Vec Ideal S5000x65 .f32) A := by
  obtain ⟨-, -, e0, e1, -⟩ := idx_facts t
  intro p j
  have hidx : ((cfg0.win 1).blk t).view.emb (ix2 p j) = ix2 (rowOf t p) j := by
    funext a
    apply Fin.ext
    match a with
    | ⟨0, _⟩ => show win0_1.index t 0 * 5000 + 1 * p.val = 5000 * t.val + p.val; rw [e0]; omega
    | ⟨1, _⟩ => show win0_1.index t 1 * 65 + 1 * j.val = j.val; rw [e1]; omega
  rw [View.read_apply]
  exact congrArg A hidx

/-- The features' block at point t holds rows 5000·t + p of the features. -/
theorem rows0 (c : Dev nD) (t : Fin cfg0.N) :
    Rows (rowOf t) (iblk m c 0 t : Vec Ideal S5000x65 .f32) (V m c (Pipeline.arrRef spec0 0)) := by
  unfold iblk
  exact blk0_rows _ t

/-- The aggregate's block at point t holds rows 5000·t + p of the aggregate. The array is never opened here: it is
    the host's scatter-add, and only its name matters. -/
theorem rows1 (c : Dev nD) (t : Fin cfg0.N) :
    Rows (rowOf t) (iblk m c 1 t : Vec Ideal S5000x65 .f32) (V m c (Pipeline.arrRef spec0 1)) := by
  unfold iblk
  exact blk1_rows _ t

/-- Every point stages the whole first weight matrix. -/
theorem iblk2_eq (c : Dev nD) (t : Fin cfg0.N) : (iblk m c 2 t : Vec Ideal S65x64 .f32) = (V m c main_arg2 : S65x64.Idx → EReal) := by
  obtain ⟨-, -, -, -, e0, e1, -⟩ := idx_facts t
  funext x
  have hidx : ((cfg0.win 2).blk t).view.emb x = x := by
    funext a
    apply Fin.ext
    match a with
    | ⟨0, _⟩ => show win0_2.index t 0 * 65 + 1 * (x 0).val = (x 0).val; rw [e0]; omega
    | ⟨1, _⟩ => show win0_2.index t 1 * 64 + 1 * (x 1).val = (x 1).val; rw [e1]; omega
  unfold iblk
  rw [View.read_apply]
  exact congrArg (V m c main_arg2) hidx

/-- Every point stages the whole first bias. -/
theorem iblk3_eq (c : Dev nD) (t : Fin cfg0.N) : (iblk m c 3 t : Vec Ideal S64 .f32) = (V m c main_arg3 : S64.Idx → EReal) := by
  obtain ⟨-, -, -, -, -, -, e0, -⟩ := idx_facts t
  funext x
  have hidx : ((cfg0.win 3).blk t).view.emb x = x := by
    funext a
    apply Fin.ext
    match a with
    | ⟨0, _⟩ => show win0_3.index t 0 * 64 + 1 * (x 0).val = (x 0).val; rw [e0]; omega
  unfold iblk
  rw [View.read_apply]
  exact congrArg (V m c main_arg3) hidx

/-- Every point stages the whole second weight matrix. -/
theorem iblk4_eq (c : Dev nD) (t : Fin cfg0.N) : (iblk m c 4 t : Vec Ideal S64x64 .f32) = (V m c main_arg4 : S64x64.Idx → EReal) := by
  obtain ⟨-, -, -, -, -, -, -, e0, e1, -⟩ := idx_facts t
  funext x
  have hidx : ((cfg0.win 4).blk t).view.emb x = x := by
    funext a
    apply Fin.ext
    match a with
    | ⟨0, _⟩ => show win0_4.index t 0 * 64 + 1 * (x 0).val = (x 0).val; rw [e0]; omega
    | ⟨1, _⟩ => show win0_4.index t 1 * 64 + 1 * (x 1).val = (x 1).val; rw [e1]; omega
  unfold iblk
  rw [View.read_apply]
  exact congrArg (V m c main_arg4) hidx

/-- Every point stages the whole second bias. -/
theorem iblk5_eq (c : Dev nD) (t : Fin cfg0.N) : (iblk m c 5 t : Vec Ideal S64 .f32) = (V m c main_arg5 : S64.Idx → EReal) := by
  obtain ⟨-, -, -, -, -, -, -, -, -, e0, -⟩ := idx_facts t
  funext x
  have hidx : ((cfg0.win 5).blk t).view.emb x = x := by
    funext a
    apply Fin.ext
    match a with
    | ⟨0, _⟩ => show win0_5.index t 0 * 64 + 1 * (x 0).val = (x 0).val; rw [e0]; omega
  unfold iblk
  rw [View.read_apply]
  exact congrArg (V m c main_arg5) hidx

/-! ## What a point writes back, and the array after the run -/

/-- The dense layers of the arrays as the launch finds them. -/
abbrev whole (c : Dev nD) : S100000x64.Idx → EReal :=
  Cert.ReferenceIdeal.Net.dense (V m c (Pipeline.arrRef spec0 0)) (V m c (Pipeline.arrRef spec0 1))
    (V m c main_arg2) (V m c main_arg3) (V m c main_arg4) (V m c main_arg5)

/-- Point t writes back block t of the dense layers of the whole arrays. -/
theorem flushed_eq (c : Dev nD) (t : Fin cfg0.N) :
    (dats m 0 c).flushed 6 t = ((cfg0.win 6).blk t).view.read (Elt Ideal) (whole m c) := by
  obtain ⟨-, -, -, -, -, -, -, -, -, -, e0, e1⟩ := idx_facts t
  rw [Value.flushed6]
  unfold out0_6
  rw [View.canon_unit_zero hz2]
  simp only [View.ld_unit_zero (S := S5000x65) hz2, View.ld_unit_zero (S := S65x64) hz2, View.ld_unit_zero (S := S64x64) hz2,
    View.ld_unit_zero (S := S64) hz1]
  funext j
  obtain ⟨p, q, rfl⟩ : ∃ (p : Fin 5000) (q : Fin 64), j = ix2 p q := ⟨j 0, j 1, eq_ix2 j⟩
  have he : ((cfg0.win 6).blk t).view.emb (ix2 p q) = ix2 (rowOf t p) q := by
    funext a
    apply Fin.ext
    match a with
    | ⟨0, _⟩ => show win0_6.index t 0 * 5000 + 1 * p.val = 5000 * t.val + p.val; rw [e0]; omega
    | ⟨1, _⟩ => show win0_6.index t 1 * 64 + 1 * q.val = q.val; rw [e1]; omega
  show k0_pay1 (F := Ideal) (iblk m c 0 t) (iblk m c 1 t) (iblk m c 2 t) (iblk m c 3 t) (iblk m c 4 t) (iblk m c 5 t) (ix2 p q)
    = whole m c (((cfg0.win 6).blk t).view.emb (ix2 p q))
  rw [he]
  refine (payload_rows (rows0 m c t) (rows1 m c t) (iblk m c 2 t) (iblk m c 3 t) (iblk m c 4 t) (iblk m c 5 t) p q).trans ?_
  rw [iblk2_eq m c t, iblk3_eq m c t, iblk4_eq m c t, iblk5_eq m c t]

/-- An index of the result array is in point t's block iff its row lies in rows 5000·t … 5000·t + 4999. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v14).slice (win0_6.rect t)).set ↔ _
  rw [View.set_slice_whole, Rect.mem_set_unit]
  exact Iff.rfl

/-- Row r lies in the block of point r / 5000: the 20 blocks cover the array. -/
theorem covered (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  let t : Fin cfg0.N := ⟨(i 0).val / 5000, Nat.lt_of_lt_of_eq (by omega : (i 0).val / 5000 < 20) N_0.symm⟩
  obtain ⟨-, -, -, -, -, -, -, -, -, -, e0, e1⟩ := idx_facts t
  have ht : t.val = (i 0).val / 5000 := rfl
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 64 ≤ (i 1).val ∧ (i 1).val < win0_6.index t (1 : Fin 2) * 64 + 64; rw [e1]; omega

/-- The result array after the run: the dense layers of the features and their aggregate. -/
theorem final (c : Dev nD) :
    (dats m 0 c).arrAt 6 cfg0.N
      = Cert.ReferenceIdeal.Net.dense (m ((c : Thread nD τ).loc main_arg0))
          (agg (m ((c : Thread nD τ).loc main_arg0)) (m ((c : Thread nD τ).loc main_arg1)))
          (m ((c : Thread nD τ).loc main_arg2)) (m ((c : Thread nD τ).loc main_arg3))
          (m ((c : Thread nD τ).loc main_arg4)) (m ((c : Thread nD τ).loc main_arg5)) := by
  have h0 : V m c (Pipeline.arrRef spec0 0) = m ((c : Thread nD τ).loc main_arg0) := V_main_arg0 m c
  have h1 : (V m c (Pipeline.arrRef spec0 1) : S100000x65.Idx → EReal)
      = agg (m ((c : Thread nD τ).loc main_arg0)) (m ((c : Thread nD τ).loc main_arg1)) := V_agg m c
  refine ((dats m 0 c).arrAt_eq_of_cover 6 (whole m c) (fun t _ => flushed_eq m c t) covered).trans ?_
  show Cert.ReferenceIdeal.Net.dense (V m c (Pipeline.arrRef spec0 0)) (V m c (Pipeline.arrRef spec0 1))
    (V m c main_arg2) (V m c main_arg3) (V m c main_arg4) (V m c main_arg5) = _
  rw [h0, h1, V_main_arg2, V_main_arg3, V_main_arg4, V_main_arg5]

/-- Every weakly fair execution of the kernel program ends with the result array at the dense layers of the features
    and their aggregate, the arguments unchanged. -/
theorem run : θ_run defs (onTc (τ := τ) (main (F := Ideal))) ⟨m, fun _ => 0, ρ⟩ fun r => ∀ c : Dev nD,
      r.2.mem ((c : Thread nD τ).loc main_v14)
        = Cert.ReferenceIdeal.Net.dense (m ((c : Thread nD τ).loc main_arg0))
            (agg (m ((c : Thread nD τ).loc main_arg0)) (m ((c : Thread nD τ).loc main_arg1)))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Net

end
-- ==== Proof.ReferenceValue.lean ====
/-
  The reference program's result as the same function of the arguments as the kernel program's.

  The reference aggregates neighbour features with the same host operations as the kernel program (a gather of the
  source rows scatter-added into the destination rows), then applies the dense layers to the whole arrays. Its run's
  result term is `dense X (agg X E) w1 b1 w2 b2` by unfolding. The two programs' aggregates are one function: the
  operations are the same, and the dimension records they carry have the same fields.
-/
import proofs.«155643_j24146306138775_1_alg».proof.Proof.Gen.ReferenceIdeal.Run
import proofs.«155643_j24146306138775_1_alg».proof.Proof.KernelValue

noncomputable section

open Idealize.ShloMosaic Idealize.ShloMosaic.TcCoe Idealize.SL.Sem

namespace Cert.ReferenceIdeal.Net

open Cert.ReferenceIdeal.Gen

/-- Row d of the aggregate is the sum of the rows X[src e] over the edges e with dst e = d (source indices below zero
    wrapped by 100000 first), in the reference's host operations. -/
def agg (X : FVec Ideal S100000x65 .f32) (E : IVec S2x3200000 32) : FVec Ideal S100000x65 .f32 :=
  Host.scatterAdd scatter_S100000x65_S3200000x1_S3200000x65_1_0_0_1
    (broadcastInDim S100000x65 ![] bcast_S_S100000x65 (constant S_ .f32 0x00000000#32))
    (broadcastInDim S3200000x1 ![0] bcast_S3200000_S3200000x1_0
      (shapeCast S3200000 (extractStridedSlice S1x3200000 ![1, 0] E slices_S2x3200000_S1x3200000_1_0) shapeCasts_S1x3200000_S3200000))
    (Host.gather gather_S100000x65_S3200000x1_S3200000x65_1_0_n_n_0_1_165 X
      (broadcastInDim S3200000x1 ![0] bcast_S3200000_S3200000x1_0
        (select
          (cmpi .slt (shapeCast S3200000 (extractStridedSlice S1x3200000 ![0, 0] E slices_S2x3200000_S1x3200000_0_0) shapeCasts_S1x3200000_S3200000)
            (broadcastInDim S3200000 ![] bcast_S_S3200000 (constantI S_ 32 0#32)))
          (addi (shapeCast S3200000 (extractStridedSlice S1x3200000 ![0, 0] E slices_S2x3200000_S1x3200000_0_0) shapeCasts_S1x3200000_S3200000)
            (broadcastInDim S3200000 ![] bcast_S_S3200000 (constantI S_ 32 100000#32)))
          (shapeCast S3200000 (extractStridedSlice S1x3200000 ![0, 0] E slices_S2x3200000_S1x3200000_0_0) shapeCasts_S1x3200000_S3200000))))

/-- The two programs aggregate alike: the same operations over records with the same fields. An equation between
    the two arrays as wholes; it is never read at an index. -/
theorem agg_eq (X : FVec Ideal S100000x65 .f32) (E : IVec S2x3200000 32) :
    Cert.KernelIdeal.Net.agg X E = agg X E := rfl

variable (m : (ℓ : Loc nD τ sig) → Buf (Elt Ideal) ℓ) (ρ : Dev nD → PrngReg)

/-- Every weakly fair execution of the reference ends with its result at the dense layers of the features and their
    aggregate, the arguments unchanged. -/
theorem run : θ_run defs (onTc (τ := τ) (main (F := Ideal))) ⟨m, fun _ => 0, ρ⟩ fun r => ∀ c : Dev nD,
      r.2.mem ((c.tc : Thread nD τ).loc main_v23)
        = dense (m ((c.tc : Thread nD τ).loc main_arg0))
            (agg (m ((c.tc : Thread nD τ).loc main_arg0)) (m ((c.tc : Thread nD τ).loc main_arg1)))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (Cert.ReferenceIdeal.Value.run (F := Ideal) m ρ)

end Cert.ReferenceIdeal.Net

end
-- ==== Proof.lean ====
/-
  A graph-isomorphism convolution in two spellings computes one function on extended reals.

  With X the 100000 × 65 node features and E the 2 × 3200000 edge list, let A be the aggregate: row d of A is the
  sum of the rows X[src e] over the edges e with dst e = d. Both programs return
      relu((X + A) · w1 + b1) · w2 + b2.
  The reference applies the two layers to the whole arrays. The kernel program computes A with the same host
  operations and then runs the layers over 20 blocks of 5000 rows, narrowing the operands before each product and
  accumulating each product into zero. On extended reals a narrowing is the identity and a product accumulated
  into zero is the plain sum over the contracted coordinate, in the same order as the reference's; row r of a
  layer's result reads row r of its operand only; so block t of the kernel's result is rows 5000·t … 5000·t + 4999
  of the reference's (Network.lean, over LibRowLayers.lean and LibRowLayersPlain.lean), and the 20 blocks cover the
  array (KernelValue.lean). The two aggregates are the same array (ReferenceValue.lean). No law of arithmetic
  beyond 0 + s = s is used, so the finiteness of the inputs is never opened.

  The idealization rewrote no operation, so the kernel program read at extended reals is its own idealization.
-/
import proofs.«155643_j24146306138775_1_alg».proof.Defs
import proofs.«155643_j24146306138775_1_alg».proof.Proof.Gen.Kernel
import proofs.«155643_j24146306138775_1_alg».proof.Proof.Gen.Kernel.Skeleton
import proofs.«155643_j24146306138775_1_alg».proof.Proof.Gen.Kernel.Launch
import proofs.«155643_j24146306138775_1_alg».proof.Proof.Gen.Kernel.Points
import proofs.«155643_j24146306138775_1_alg».proof.Proof.Gen.Kernel.Frame
import proofs.«155643_j24146306138775_1_alg».proof.Proof.Gen.KernelIdeal
import proofs.«155643_j24146306138775_1_alg».proof.Proof.Gen.KernelIdeal.Skeleton
import proofs.«155643_j24146306138775_1_alg».proof.Proof.Gen.KernelIdeal.Launch
import proofs.«155643_j24146306138775_1_alg».proof.Proof.Gen.KernelIdeal.Points
import proofs.«155643_j24146306138775_1_alg».proof.Proof.Gen.KernelIdeal.Frame
import proofs.«155643_j24146306138775_1_alg».proof.Proof.Gen.ReferenceIdeal
import proofs.«155643_j24146306138775_1_alg».proof.Proof.Gen.Pre_finite_inputs
import proofs.«155643_j24146306138775_1_alg».proof.Proof.Gen.KernelIdeal.Value
import proofs.«155643_j24146306138775_1_alg».proof.Proof.Gen.ReferenceIdeal.Run
import proofs.«155643_j24146306138775_1_alg».proof.Proof.KernelValue
import proofs.«155643_j24146306138775_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel program as printed terminates without a fault and leaves its arguments as they were. -/
theorem frame_k : Cert.frame_Kernel := fun m ρ _ => Cert.Kernel.Gen.frame m ρ

/-- So does its reading at extended reals. -/
theorem frame_ki : Cert.frame_KernelIdeal := fun m ρ _ => Cert.KernelIdeal.Gen.frame m ρ

/-- The reference is a sequence of host operations: it runs to its result and writes no argument. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten, so there is nothing to preserve. -/
theorem preserves : Cert.preserves_Kernel_KernelIdeal := trivial

/-- From memories that agree on the arguments both programs end with their result arrays at the dense layers of
    the features and their aggregate: the kernel program block by block, the reference at once, the two aggregates
    one array. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Net.run m' ρ')
  obtain ⟨e0, e1, e2, e3, e4, e5⟩ := hagree c
  rw [e0, e1, e2, e3, e4, e5, Cert.ReferenceIdeal.Net.agg_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
